-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x128 : Shape := ⟨3, ![128, 512, 128]⟩
abbrev S_ : Shape := ⟨0, ![]⟩

class Facts : Prop where
  bcast_S_S128x512x128 : S_.BroadcastsInDim S128x512x128 (![] : Fin 0 → Fin S128x512x128.rank)
  reducesTo_S128x512x128_S_d0_1_2 : S128x512x128.ReducesTo [0, 1, 2] S_
  h_S_ : 0 < S_.numel

variable [Facts]

def fn {F : FTy → Type} [FloatOps F] (main_arg0 : FVec F S128x512x128 .f32) (main_arg1 : FVec F S128x512x128 .f32) : IVec S_ 1 :=
  let main_v0 : FVec F S128x512x128 .f32 := Host.absf main_arg0
  let main_cst : FVec F S_ .f32 := constant S_ .f32 0x7F800000#32
  let main_v1 : FVec F S128x512x128 .f32 := broadcastInDim S128x512x128 ![] bcast_S_S128x512x128 main_cst
  let main_v2 : IVec S128x512x128 1 := cmpf .olt main_v0 main_v1
  let main_c : IVec S_ 1 := constantI S_ 1 1#1
  let main_v3 : IVec S_ 1 := (fun x v => Host.reduce IntOp.andi x v reducesTo_S128x512x128_S_d0_1_2 h_S_) main_v2 main_c
  let main_v4 : FVec F S128x512x128 .f32 := Host.absf main_arg1
  let main_cst_0 : FVec F S_ .f32 := constant S_ .f32 0x7F800000#32
  let main_v5 : FVec F S128x512x128 .f32 := broadcastInDim S128x512x128 ![] bcast_S_S128x512x128 main_cst_0
  let main_v6 : IVec S128x512x128 1 := cmpf .olt main_v4 main_v5
  let main_c_1 : IVec S_ 1 := constantI S_ 1 1#1
  let main_v7 : IVec S_ 1 := (fun x v => Host.reduce IntOp.andi x v reducesTo_S128x512x128_S_d0_1_2 h_S_) main_v6 main_c_1
  let main_v8 : IVec S_ 1 := andi main_v3 main_v7
  main_v8
-- ==== Kernel.lean ====
abbrev S128x512x128 : Shape := ⟨3, ![128, 512, 128]⟩
abbrev S128x1 : Shape := ⟨2, ![128, 1]⟩
abbrev S8x512x128 : Shape := ⟨3, ![8, 512, 128]⟩
abbrev S8x1 : Shape := ⟨2, ![8, 1]⟩
abbrev S8x512 : Shape := ⟨2, ![8, 512]⟩
abbrev S8x512x1 : Shape := ⟨3, ![8, 512, 1]⟩
abbrev S8x1x512 : Shape := ⟨3, ![8, 1, 512]⟩
abbrev S8x512x512 : Shape := ⟨3, ![8, 512, 512]⟩
abbrev S8 : Shape := ⟨1, ![8]⟩
abbrev S128 : Shape := ⟨1, ![128]⟩

abbrev nBuf : Space → Nat
  | .hbm => 4
  | .vmem => 6
  | .smem => 0
  | _ => 0

abbrev bufTy : (tb : Table) → Fin (tcTables nBuf tb) → BufTy
  | .hbm, ⟨0, _⟩ => ⟨S128x512x128, .f32⟩
  | .hbm, ⟨1, _⟩ => ⟨S128x512x128, .f32⟩
  | .hbm, ⟨2, _⟩ => ⟨S128x1, .f32⟩
  | .hbm, ⟨3, _⟩ => ⟨S128, .f32⟩
  | .local _ .vmem, ⟨0, _⟩ => ⟨S8x512x128, .f32⟩
  | .local _ .vmem, ⟨1, _⟩ => ⟨S8x512x128, .f32⟩
  | .local _ .vmem, ⟨2, _⟩ => ⟨S8x512x128, .f32⟩
  | .local _ .vmem, ⟨3, _⟩ => ⟨S8x512x128, .f32⟩
  | .local _ .vmem, ⟨4, _⟩ => ⟨S8x1, .f32⟩
  | .local _ .vmem, ⟨5, _⟩ => ⟨S8x1, .f32⟩
  | _, _ => ⟨S128x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x512x128_S8x512x128_0_0_0 : ∀ a, (![0, 0, 0] : Fin 3 → Nat) a + S8x512x128.size a ≤ S8x512x128.size a
  h_S8x512x128 : 0 < S8x512x128.numel
  reduces_S8x512x128_S8x512 : S8x512x128.Reduces [2] S8x512
  shapeCasts_S8x512_S8x512x1 : S8x512.ShapeCasts S8x512x1
  shapeCasts_S8x512_S8x1x512 : S8x512.ShapeCasts S8x1x512
  bitsLt_bf16_f32 : FTy.bits .bf16 < FTy.bits .f32
  broadcasts_S8x512x1_S8x512x512 : S8x512x1.Broadcasts S8x512x512
  broadcasts_S8x1x512_S8x512x512 : S8x1x512.Broadcasts S8x512x512
  reduces_S8x512x512_S8x512 : S8x512x512.Reduces [2] S8x512
  reduces_S8x512_S8 : S8x512.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S128x1_S128 : S128x1.ShapeCasts S128
  dot_S8x512x128_S8x512x128_S8x512x512_2_2_1_1_0_0_wf : DotDims.WF S8x512x128 S8x512x128 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x128.size a ≤ S128x512x128.size a
  hwx0_0 : ∀ i : grid0.Coords, EltTy.bits .f32 = 32 ∨ (Rect.block (s := S128x512x128) S8x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x128.size a ≤ S128x512x128.size a
  hwx0_1 : ∀ i : grid0.Coords, EltTy.bits .f32 = 32 ∨ (Rect.block (s := S128x512x128) S8x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S128x1.size a
  hwx0_2 : ∀ i : grid0.Coords, EltTy.bits .f32 = 32 ∨ (Rect.block (s := S128x1) S8x1.size (cc0_transform_2 i) (hinb0_2 i)).WholeWords (EltTy.packing .f32)

variable [Facts₀]

def dot_S8x512x128_S8x512x128_S8x512x512_2_2_1_1_0_0 : DotDims S8x512x128 S8x512x128 S8x512x512 where
  lhsContracting := [2]
  rhsContracting := [2]
  lhsNonContracting := [1]
  rhsNonContracting := [1]
  lhsBatch := [0]
  rhsBatch := [0]
  wf := dot_S8x512x128_S8x512x128_S8x512x512_2_2_1_1_0_0_wf

abbrev win0_0 : Pipeline.Window sig grid0 :=
  Pipeline.Window.ofSpec (Memref.whole main_arg0) S8x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512x128 : Shape := ⟨3, ![128, 512, 128]⟩
abbrev S_ : Shape := ⟨0, ![]⟩
abbrev S128x512 : Shape := ⟨2, ![128, 512]⟩
abbrev S128x512x512 : Shape := ⟨3, ![128, 512, 512]⟩
abbrev S128x512x1 : Shape := ⟨3, ![128, 512, 1]⟩
abbrev S128x1x512 : Shape := ⟨3, ![128, 1, 512]⟩
abbrev S128 : Shape := ⟨1, ![128]⟩

abbrev nBuf : Space → Nat
  | .hbm => 22
  | .vmem => 0
  | .smem => 0
  | _ => 0

abbrev bufTy : (tb : Table) → Fin (tcTables nBuf tb) → BufTy
  | .hbm, ⟨0, _⟩ => ⟨S128x512x128, .f32⟩
  | .hbm, ⟨1, _⟩ => ⟨S128x512x128, .f32⟩
  | .hbm, ⟨2, _⟩ => ⟨S128x512x128, .f32⟩
  | .hbm, ⟨3, _⟩ => ⟨S_, .f32⟩
  | .hbm, ⟨4, _⟩ => ⟨S128x512, .f32⟩
  | .hbm, ⟨5, _⟩ => ⟨S128x512x128, .f32⟩
  | .hbm, ⟨6, _⟩ => ⟨S_, .f32⟩
  | .hbm, ⟨7, _⟩ => ⟨S128x512, .f32⟩
  | .hbm, ⟨8, _⟩ => ⟨S128x512x512, .f32⟩
  | .hbm, ⟨9, _⟩ => ⟨S_, .f32⟩
  | .hbm, ⟨10, _⟩ => ⟨S128x512x512, .f32⟩
  | .hbm, ⟨11, _⟩ => ⟨S128x512x512, .f32⟩
  | .hbm, ⟨12, _⟩ => ⟨S128x512x1, .f32⟩
  | .hbm, ⟨13, _⟩ => ⟨S128x512x512, .f32⟩
  | .hbm, ⟨14, _⟩ => ⟨S128x512x512, .f32⟩
  | .hbm, ⟨15, _⟩ => ⟨S128x1x512, .f32⟩
  | .hbm, ⟨16, _⟩ => ⟨S128x512x512, .f32⟩
  | .hbm, ⟨17, _⟩ => ⟨S128x512x512, .f32⟩
  | .hbm, ⟨18, _⟩ => ⟨S_, .f32⟩
  | .hbm, ⟨19, _⟩ => ⟨S128x512, .f32⟩
  | .hbm, ⟨20, _⟩ => ⟨S_, .f32⟩
  | .hbm, ⟨21, _⟩ => ⟨S128, .f32⟩
  | _, _ => ⟨S128x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S128x512x128_S128x512_d2 : S128x512x128.ReducesTo [2] S128x512
  h_S_ : 0 < S_.numel
  bcast_S_S128x512x512 : S_.BroadcastsInDim S128x512x512 (![] : Fin 0 → Fin S128x512x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  bcast_S128x512_S128x1x512_0_2 : S128x512.BroadcastsInDim S128x1x512 (![0, 2] : Fin 2 → Fin S128x1x512.rank)
  bcast_S128x1x512_S128x512x512_0_1_2 : S128x1x512.BroadcastsInDim S128x512x512 (![0, 1, 2] : Fin 3 → Fin S128x512x512.rank)
  reducesTo_S128x512x512_S128x512_d2 : S128x512x512.ReducesTo [2] S128x512
  reducesTo_S128x512_S128_d1 : S128x512.ReducesTo [1] S128
  dot_S128x512x128_S128x512x128_S128x512x512_2_2_1_1_0_0_wf : DotDims.WF S128x512x128 S128x512x128 S128x512x512 [2] [2] [1] [1] [0] [0]

variable [Facts₀]

def dot_S128x512x128_S128x512x128_S128x512x512_2_2_1_1_0_0 : DotDims S128x512x128 S128x512x128 S128x512x512 where
  lhsContracting := [2]
  rhsContracting := [2]
  lhsNonContracting := [1]
  rhsNonContracting := [1]
  lhsBatch := [0]
  rhsBatch := [0]
  wf := dot_S128x512x128_S128x512x128_S128x512x512_2_2_1_1_0_0_wf

class Facts : Prop extends Facts₀ where

variable [Facts]
-- ==== Proof.LibAxisAt.lean ====
/-
  Layout operations and single-axis reductions of rank-2 and rank-3 arrays, read at an index written by its
  coordinates, generic in the extents.

  * a unit axis appended or inserted by a shape cast: [a,b] → [a,b,1], [a,b] → [a,1,b], [a] → [a,1] read the
    operand at the remaining coordinates;
  * a unit axis stretched by a broadcast: [a,b,1] → [a,b,c] and [a,1,c] → [a,b,c] read the operand at the unit
    coordinate 0;
  * at the extended reals, a sum over the last axis of a rank-3 or rank-2 array is the finite sum over that
    axis's coordinate, and a maximum over the last axis of a rank-3 array (the vector reduction and the host's
    reduce alike) is the fold of `max` from the initial value over that coordinate.
-/
import Idealize.ShloMosaic.PureOps.Ideal.Laws
import Idealize.ShloMosaic.Lib.Pipeline.Value
import Idealize.ShloMosaic.Lib.ValueIdx

noncomputable section

namespace Cert.AxisAt

open Idealize.ShloMosaic Idealize.ShloMosaic.ValueIdx

variable {α : Type}

/-! ## A unit axis added by a shape cast -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## A unit axis stretched by a broadcast -/

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## Reductions over the last axis, at the extended reals -/

variable {φ : FTy}

/-- The sum over the last axis of an `[a, b, c]` array, at `(i, j)`: the sum over `e` of the entries `(i, j, e)`. -/
theorem sum_axis2_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ e : Fin c, src (ix3 i j e) := by
  rw [Ideal.multiReduction_add_single]
  refine Finset.sum_congr rfl fun e _ => congrArg src (funext fun ax => Fin.ext ?_)
  match ax with
  | ⟨0, _⟩ => rfl
  | ⟨1, _⟩ => rfl
  | ⟨2, _⟩ => rfl

/-- The sum over the last axis of an `[a, b]` array, at `i`: the sum over `e` of the entries `(i, e)`. -/
theorem sum_axis1_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ e : Fin b, src (ix2 i e) := by
  rw [Ideal.multiReduction_add_single]
  refine Finset.sum_congr rfl fun e _ => congrArg src (funext fun ax => Fin.ext ?_)
  match ax with
  | ⟨0, _⟩ => rfl
  | ⟨1, _⟩ => rfl

/-- The maximum over the last axis of an `[a, b, c]` array, at `(i, j)`: `max` folded from the initial value
    over the entries `(i, j, e)`. -/
theorem max_axis2_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun e => src (ix3 i j e)) := by
  rw [Ideal.multiReduction_maximumf_single]
  have hf : (src ∘ h.lift (ix2 i j)) = fun e : Fin c => src (ix3 i j e) :=
    funext fun e => congrArg src (funext fun ax => Fin.ext (by
      match ax with
      | ⟨0, _⟩ => rfl
      | ⟨1, _⟩ => rfl
      | ⟨2, _⟩ => rfl))
  exact congrArg (fun f => Finset.fold max (Ideal.ofBits φ acc) f (Finset.univ : Finset (Fin c))) hf

/-- The host's reduce with a maximum body over the last axis of an `[a, b, c]` array, at `(i, j)`: `max` folded
    from the initial value's element over the entries `(i, j, e)`. -/
theorem hostMax_axis2_apply {a b c : ℕ} {u : Shape} (x : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce FloatOps.maximumf x init h' hu (ix2 i j)
      = (Finset.univ : Finset (Fin c)).fold max (init (Shape.Idx.first hu)) (fun e => x (ix3 i j e)) := by
  rw [Host.reduce_eq_fold_single FloatOps.maximumf x init h' h hu]
  have hf : (x ∘ h.lift (ix2 i j)) = fun e : Fin c => x (ix3 i j e) :=
    funext fun e => congrArg x (funext fun ax => Fin.ext (by
      match ax with
      | ⟨0, _⟩ => rfl
      | ⟨1, _⟩ => rfl
      | ⟨2, _⟩ => rfl))
  exact congrArg (fun f => Finset.fold max (init (Shape.Idx.first hu)) f (Finset.univ : Finset (Fin c))) hf

end Cert.AxisAt

end
-- ==== Proof.Score.lean ====
/-
  The late-interaction score of ONE batch entry under the squared Euclidean metric, on the extended reals.

  For a matrix of query rows `q i` and a matrix of document rows `d k` (rows of the same length), the negated
  squared distance of a pair is written in its expanded form, `-‖q i - d k‖² = 2·⟨q i, d k⟩ - ‖q i‖² - ‖d k‖²`, with
  the two subtractions taken left to right; each query row keeps its best document row (a maximum folded from an
  initial value), and the entry's score is the sum over the query rows. Both programs compute exactly this term,
  with the same constant for `2` and the same initial value for the maximum, so the constants stay parameters.
-/
import Idealize.ShloMosaic.PureOps.Ideal
import Idealize.ShloMosaic.Lib.Pipeline.Value
import Idealize.ShloMosaic.Lib.ValueIdx

noncomputable section

namespace Cert.MaxSim

/-- The expanded negated squared distance of query row `i` and document row `k`:
    `(two · Σₑ q i e · d k e  -  Σₑ (q i e)²)  -  Σₑ (d k e)²`. -/
def negDist {nQ nK nD : ℕ} (two : EReal) (q : Fin nQ → Fin nD → EReal) (d : Fin nK → Fin nD → EReal)
    (i : Fin nQ) (k : Fin nK) : EReal :=
  (two * (∑ e : Fin nD, q i e * d k e) - ∑ e : Fin nD, q i e * q i e) - ∑ e : Fin nD, d k e * d k e

/-- The entry's score: over the query rows, the sum of each row's maximum of `negDist` over the document rows,
    the maximum folded from `bot`. -/
def rowScore {nQ nK nD : ℕ} (two bot : EReal) (q : Fin nQ → Fin nD → EReal) (d : Fin nK → Fin nD → EReal) : EReal :=
  ∑ i : Fin nQ, (Finset.univ : Finset (Fin nK)).fold max bot (fun k => negDist two q d i k)

open Idealize.ShloMosaic Idealize.ShloMosaic.ValueIdx

/-- The scores of all batch entries of an `[nB, nQ, nD]` query array and an `[nB, nK, nD]` document array, as
    a vector over the batch: entry `b` is `rowScore` of the two arrays' matrices at batch entry `b`. -/
def scores {nB nQ nK nD : ℕ} (two bot : EReal) (A0 : (⟨3, ![nB, nQ, nD]⟩ : Shape).Idx → EReal)
    (A1 : (⟨3, ![nB, nK, nD]⟩ : Shape).Idx → EReal) : (⟨1, ![nB]⟩ : Shape).Idx → EReal :=
  fun j => rowScore two bot (fun i e => A0 (ix3 (⟨(j 0).val, (j 0).isLt⟩ : Fin nB) i e))
    (fun k e => A1 (ix3 (⟨(j 0).val, (j 0).isLt⟩ : Fin nB) k e))

/-- The same scores laid out as an `[nB, 1]` column. -/
def scoresCol {nB nQ nK nD : ℕ} (two bot : EReal) (A0 : (⟨3, ![nB, nQ, nD]⟩ : Shape).Idx → EReal)
    (A1 : (⟨3, ![nB, nK, nD]⟩ : Shape).Idx → EReal) : (⟨2, ![nB, 1]⟩ : Shape).Idx → EReal :=
  fun j => rowScore two bot (fun i e => A0 (ix3 (⟨(j 0).val, (j 0).isLt⟩ : Fin nB) i e))
    (fun k e => A1 (ix3 (⟨(j 0).val, (j 0).isLt⟩ : Fin nB) k e))

/-- The column reshaped to a vector is the vector of scores: entry `b` of the vector is entry `(b, 0)` of the column. -/
theorem shapeCast_scoresCol {nB nQ nK nD : ℕ} (two bot : EReal) (A0 : (⟨3, ![nB, nQ, nD]⟩ : Shape).Idx → EReal)
    (A1 : (⟨3, ![nB, nK, nD]⟩ : Shape).Idx → EReal) (h : (⟨2, ![nB, 1]⟩ : Shape).ShapeCasts ⟨1, ![nB]⟩) :
    shapeCast ⟨1, ![nB]⟩ (scoresCol two bot A0 A1) h = scores two bot A0 A1 := by
  funext j
  refine (shapeCast_apply (scoresCol two bot A0 A1) h j (ix2 (⟨(j 0).val, (j 0).isLt⟩ : Fin nB) (0 : Fin 1)) ?_).trans rfl
  rw [Shape.rowMajor_val_two, Shape.rowMajor_val_one]
  show (j 0).val * 1 + 0 = (j 0).val
  rw [Nat.mul_one, Nat.add_zero]

end Cert.MaxSim

end
-- ==== Proof.KernelScore.lean ====
/-
  What the kernel's body stores, read at an index: entry `(b, 0)` of the stored `[8, 1]` block is the score
  (`MaxSim.rowScore`) of batch entry `b` of the two loaded `[8, 512, 128]` blocks.

  The body squares and sums each row of both blocks (a sum over the last axis, kept as a trailing unit axis for the
  queries and as a middle unit axis for the documents), contracts the two blocks over their last axis batch by batch
  (at the extended reals the narrowing of the operands is the identity and the product into a zero accumulator is the
  plain sum of products), forms `2·qd - ‖q‖² - ‖d‖²` by stretching the two unit axes, takes the maximum over the
  documents and the sum over the queries.
-/
import proofs.«137263_j78829829751029_1_alg».proof.Proof.Gen.KernelIdeal.Skeleton
import proofs.«137263_j78829829751029_1_alg».proof.Proof.LibAxisAt
import proofs.«137263_j78829829751029_1_alg».proof.Proof.Score
import Idealize.ShloMosaic.Lib.ValueIdx
import Idealize.ShloMosaic.PureOps.Ideal.Laws

noncomputable section

namespace Cert.KernelIdeal.Score

open Cert.KernelIdeal Cert.KernelIdeal.Gen Idealize.ShloMosaic Idealize.ShloMosaic.ValueIdx

/-! ## The batched contraction's operand indices, axis by axis -/

theorem lhs_qd_0 (i : S8x512x512.Idx) (q : dot_S8x512x128_S8x512x128_S8x512x512_2_2_1_1_0_0.contr.Idx) :
    (dot_S8x512x128_S8x512x128_S8x512x512_2_2_1_1_0_0.lhsIdx i q 0).val = (i 0).val := by
  unfold DotDims.lhsIdx
  rw [dif_pos (show (0 : Fin S8x512x128.rank) ∈ dot_S8x512x128_S8x512x128_S8x512x512_2_2_1_1_0_0.lhsBatch by decide)]
  rfl
theorem lhs_qd_1 (i : S8x512x512.Idx) (q : dot_S8x512x128_S8x512x128_S8x512x512_2_2_1_1_0_0.contr.Idx) :
    (dot_S8x512x128_S8x512x128_S8x512x512_2_2_1_1_0_0.lhsIdx i q 1).val = (i 1).val := by
  unfold DotDims.lhsIdx
  rw [dif_neg (show ¬(1 : Fin S8x512x128.rank) ∈ dot_S8x512x128_S8x512x128_S8x512x512_2_2_1_1_0_0.lhsBatch by decide), dif_pos (show (1 : Fin S8x512x128.rank) ∈ dot_S8x512x128_S8x512x128_S8x512x512_2_2_1_1_0_0.lhsNonContracting by decide)]
  rfl
theorem lhs_qd_2 (i : S8x512x512.Idx) (q : dot_S8x512x128_S8x512x128_S8x512x512_2_2_1_1_0_0.contr.Idx) :
    (dot_S8x512x128_S8x512x128_S8x512x512_2_2_1_1_0_0.lhsIdx i q 2).val = (q ⟨0, by decide⟩).val :=
  dot_S8x512x128_S8x512x128_S8x512x512_2_2_1_1_0_0.lhsIdx_val_of_single rfl i q
theorem rhs_qd_0 (i : S8x512x512.Idx) (q : dot_S8x512x128_S8x512x128_S8x512x512_2_2_1_1_0_0.contr.Idx) :
    (dot_S8x512x128_S8x512x128_S8x512x512_2_2_1_1_0_0.rhsIdx i q 0).val = (i 0).val := by
  unfold DotDims.rhsIdx
  rw [dif_pos (show (0 : Fin S8x512x128.rank) ∈ dot_S8x512x128_S8x512x128_S8x512x512_2_2_1_1_0_0.rhsBatch by decide)]
  rfl
theorem rhs_qd_1 (i : S8x512x512.Idx) (q : dot_S8x512x128_S8x512x128_S8x512x512_2_2_1_1_0_0.contr.Idx) :
    (dot_S8x512x128_S8x512x128_S8x512x512_2_2_1_1_0_0.rhsIdx i q 1).val = (i 2).val := by
  unfold DotDims.rhsIdx
  rw [dif_neg (show ¬(1 : Fin S8x512x128.rank) ∈ dot_S8x512x128_S8x512x128_S8x512x512_2_2_1_1_0_0.rhsBatch by decide), dif_pos (show (1 : Fin S8x512x128.rank) ∈ dot_S8x512x128_S8x512x128_S8x512x512_2_2_1_1_0_0.rhsNonContracting by decide)]
  rfl
theorem rhs_qd_2 (i : S8x512x512.Idx) (q : dot_S8x512x128_S8x512x128_S8x512x512_2_2_1_1_0_0.contr.Idx) :
    (dot_S8x512x128_S8x512x128_S8x512x512_2_2_1_1_0_0.rhsIdx i q 2).val = (q ⟨0, by decide⟩).val :=
  dot_S8x512x128_S8x512x128_S8x512x512_2_2_1_1_0_0.rhsIdx_val_of_single rfl i q

/-- The batched product of two `[8, 512, 128]` operands over their last axis, into a zero accumulator, at
    `(b, i, k)`: the sum over `e` of the left operand at `(b, i, e)` times the right at `(b, k, e)`. -/
theorem matmul_qd_apply {φ₁ φ₂ : FTy} (l : FVec Ideal S8x512x128 φ₁) (r : FVec Ideal S8x512x128 φ₂) (b : Fin 8) (i k : Fin 512) :
    matmul dot_S8x512x128_S8x512x128_S8x512x512_2_2_1_1_0_0 none l r (constant (F := Ideal) S8x512x512 .f32 0x00000000#32) (ix3 b i k)
      = ∑ e : Fin 128, l (ix3 b i e) * r (ix3 b k e) := by
  simp only [matmul]
  rw [Ideal.matmul_constant_zero_apply, ← Equiv.sum_comp (contrEquiv1 dot_S8x512x128_S8x512x128_S8x512x512_2_2_1_1_0_0 128 rfl rfl).symm]
  refine Finset.sum_congr rfl fun e _ => ?_
  have hk := contrEquiv1_symm_val dot_S8x512x128_S8x512x128_S8x512x512_2_2_1_1_0_0 128 rfl rfl e
  have el : dot_S8x512x128_S8x512x128_S8x512x512_2_2_1_1_0_0.lhsIdx (ix3 b i k) ((contrEquiv1 dot_S8x512x128_S8x512x128_S8x512x512_2_2_1_1_0_0 128 rfl rfl).symm e) = ix3 b i e := funext fun a => Fin.ext (by
    match a with
    | ⟨0, _⟩ => exact lhs_qd_0 _ _
    | ⟨1, _⟩ => exact lhs_qd_1 _ _
    | ⟨2, _⟩ => exact (lhs_qd_2 _ _).trans hk)
  have er : dot_S8x512x128_S8x512x128_S8x512x512_2_2_1_1_0_0.rhsIdx (ix3 b i k) ((contrEquiv1 dot_S8x512x128_S8x512x128_S8x512x512_2_2_1_1_0_0 128 rfl rfl).symm e) = ix3 b k e := funext fun a => Fin.ext (by
    match a with
    | ⟨0, _⟩ => exact rhs_qd_0 _ _
    | ⟨1, _⟩ => exact rhs_qd_1 _ _
    | ⟨2, _⟩ => exact (rhs_qd_2 _ _).trans hk)
  rw [el, er]

/-! ## The stored block at an index -/

/-- Entry `(b, u)` of the block the body stores is the score of batch entry `b` of the two loaded blocks. -/
theorem pay_apply (x0 x1 : Vec Ideal S8x512x128 .f32) (b : Fin 8) (u : Fin 1) :
    (k0_pay1 (F := Ideal) x0 x1) (ix2 b u)
      = MaxSim.rowScore (Ideal.ofBits .f32 0x40000000#32) (Ideal.ofBits .f32 0xFF800000#32)
          (fun i e => x0 (ix3 b i e)) (fun k e => x1 (ix3 b k e)) := by
  unfold k0_pay1
  dsimp only
  refine (AxisAt.shapeCast_a_a1_apply _ _ b u).trans ?_
  refine (AxisAt.sum_axis1_apply _ _ _ _ _ b).trans ?_
  unfold MaxSim.rowScore
  refine Finset.sum_congr rfl fun i _ => ?_
  refine (AxisAt.max_axis2_apply _ _ _ _ _ b i).trans ?_
  refine congrArg (fun f => Finset.fold max (Ideal.ofBits .f32 0xFF800000#32) f (Finset.univ : Finset (Fin 512))) (funext fun k => ?_)
  rw [subf_apply, subf_apply, mulf_apply, broadcast_apply]
  unfold MaxSim.negDist
  refine congrArg₂ (· - ·) (congrArg₂ (· - ·) (congrArg₂ (· * ·) rfl ?_) ?_) ?_
  · exact matmul_qd_apply _ _ b i k
  · exact (AxisAt.broadcastTo_ab1_abc_apply _ _ b i k).trans
      ((AxisAt.shapeCast_ab_ab1_apply _ _ b i 0).trans (AxisAt.sum_axis2_apply _ _ _ _ _ b i))
  · exact (AxisAt.broadcastTo_a1c_abc_apply _ _ b i k).trans
      ((AxisAt.shapeCast_ab_a1b_apply _ _ b 0 k).trans (AxisAt.sum_axis2_apply _ _ _ _ _ b k))

end Cert.KernelIdeal.Score

end
-- ==== Proof.KernelArray.lean ====
/-
  The kernel's result array after the run.

  Grid point `t` stages batch entries `8t … 8t + 7` of both arguments and writes back rows `8t … 8t + 7` of the
  `[128, 1]` output, row `b` of the block holding the score of the staged batch entry `b`; so the block written back
  is block `t` of the column of all 128 scores, the sixteen blocks tile the column, and the output array ends as that
  column. The reshape after the region lays the column out as the `[128]` vector of scores.
-/
import proofs.«137263_j78829829751029_1_alg».proof.Proof.Gen.KernelIdeal.Frame
import proofs.«137263_j78829829751029_1_alg».proof.Proof.KernelScore
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The column of the 128 scores of two `[128, 512, 128]` arrays, and the same as a vector. -/
abbrev colScores (A0 A1 : S128x512x128.Idx → EReal) : S128x1.Idx → EReal :=
  MaxSim.scoresCol (Ideal.ofBits .f32 0x40000000#32) (Ideal.ofBits .f32 0xFF800000#32) A0 A1
abbrev vecScores (A0 A1 : S128x512x128.Idx → EReal) : S128.Idx → EReal :=
  MaxSim.scores (Ideal.ofBits .f32 0x40000000#32) (Ideal.ofBits .f32 0xFF800000#32) A0 A1

/-- The block indices over the grid: every window moves along its batch axis with the point and stays at block 0 on
    its other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The query window's block at point `t` is batch entries `8t … 8t + 7` of the first argument. -/
theorem qblk_apply (c : Dev nD) (t : Fin cfg0.N) (b : Fin 8) (i : Fin 512) (e : Fin 128) (B : Fin 128)
    (hB : B.val = 8 * t.val + b.val) :
    (iblk m c 0 t : Vec Ideal S8x512x128 .f32) (ix3 b i e) = (V m c main_arg0 : S128x512x128.Idx → EReal) (ix3 B i e) := by
  obtain ⟨h0, h1, h2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 8 + 1 * b.val = B.val; rw [h0, hB]; omega
  | ⟨1, _⟩ => show win0_0.index t (1 : Fin 3) * 512 + 1 * i.val = i.val; rw [h1]; omega
  | ⟨2, _⟩ => show win0_0.index t (2 : Fin 3) * 128 + 1 * e.val = e.val; rw [h2]; omega

/-- The document window's block at point `t` is batch entries `8t … 8t + 7` of the second argument. -/
theorem dblk_apply (c : Dev nD) (t : Fin cfg0.N) (b : Fin 8) (k : Fin 512) (e : Fin 128) (B : Fin 128)
    (hB : B.val = 8 * t.val + b.val) :
    (iblk m c 1 t : Vec Ideal S8x512x128 .f32) (ix3 b k e) = (V m c main_arg1 : S128x512x128.Idx → EReal) (ix3 B k e) := by
  obtain ⟨-, -, -, h0, h1, h2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 8 + 1 * b.val = B.val; rw [h0, hB]; omega
  | ⟨1, _⟩ => show win0_1.index t (1 : Fin 3) * 512 + 1 * k.val = k.val; rw [h1]; omega
  | ⟨2, _⟩ => show win0_1.index t (2 : Fin 3) * 128 + 1 * e.val = e.val; rw [h2]; omega

/-- What point `t` writes back is block `t` of the column of scores of the argument arrays. -/
theorem flushed_eq (c : Dev nD) (t : Fin cfg0.N) :
    (dats m 0 c).flushed 2 t
      = ((cfg0.win 2).blk t).view.read (Elt Ideal) (colScores (V m c main_arg0) (V m c main_arg1)) := by
  show (cfg0.win 2).cut (grid0.coords t) ((dats m 0 c).after 2 t) = _
  rw [after0_2]
  unfold out0_2
  rw [View.canon_unit_zero hz2]
  simp only [View.ld_unit_zero (S := S8x512x128) hz3]
  obtain ⟨-, -, -, -, -, -, g0, g1⟩ := idx_facts t
  funext j
  have hj0 : (j 0).val < 8 := (j 0).isLt
  have hj1 : (j 1).val < 1 := (j 1).isLt
  show k0_pay1 (F := Ideal) (iblk m c 0 t) (iblk m c 1 t) j
    = colScores (V m c main_arg0) (V m c main_arg1) (((cfg0.win 2).blk t).view.emb j)
  have ej : j = ix2 (⟨(j 0).val, hj0⟩ : Fin 8) (⟨(j 1).val, hj1⟩ : Fin 1) :=
    funext fun a => Fin.ext (by match a with | ⟨0, _⟩ => rfl | ⟨1, _⟩ => rfl)
  refine (congrArg (k0_pay1 (F := Ideal) (iblk m c 0 t) (iblk m c 1 t)) ej).trans ?_
  refine (Score.pay_apply _ _ _ _).trans ?_
  have hB : ((((cfg0.win 2).blk t).view.emb j) 0).val = 8 * t.val + (j 0).val := by
    show win0_2.index t (0 : Fin 2) * 8 + 1 * (j 0).val = _
    rw [g0]; omega
  exact congrArg₂ (MaxSim.rowScore (Ideal.ofBits .f32 0x40000000#32) (Ideal.ofBits .f32 0xFF800000#32))
    (funext fun i => funext fun e => qblk_apply m c t _ i e _ hB)
    (funext fun k => funext fun e => dblk_apply m c t _ k e _ hB)

/-- An index of the output array is in point `t`'s block iff each coordinate is in the block's range on its axis. -/
theorem mem_blk (t : Fin cfg0.N) (i : S128x1.Idx) :
    i ∈ ((cfg0.win 2).blk t).view.set ↔ ∀ a : Fin 2, win0_2.index t a * S8x1.size a ≤ (i a).val ∧ (i a).val < win0_2.index t a * S8x1.size a + S8x1.size a := by
  show i ∈ ((View.whole main_v0).slice (win0_2.rect t)).set ↔ _
  rw [View.set_slice_whole, Rect.mem_set_unit]
  exact Iff.rfl

/-- Row `r` of the output lies in the block of point `r / 8`: the sixteen blocks tile the column. -/
theorem cover (i : S128x1.Idx) : ∃ t : Fin cfg0.N, (cfg0.win 2).flush t = true ∧ i ∈ ((cfg0.win 2).blk t).view.set := by
  have hi0 : (i 0).val < 128 := (i 0).isLt
  have hi1 : (i 1).val < 1 := (i 1).isLt
  refine ⟨⟨(i 0).val / 8, by rw [show cfg0.N = 16 from N_0]; omega⟩, flush0_2 _, ?_⟩
  rw [mem_blk]
  obtain ⟨-, -, -, -, -, -, g0, g1⟩ := idx_facts ⟨(i 0).val / 8, by rw [show cfg0.N = 16 from N_0]; omega⟩
  intro a
  match a with
  | ⟨0, _⟩ =>
    show win0_2.index _ (0 : Fin 2) * 8 ≤ (i 0).val ∧ (i 0).val < win0_2.index _ (0 : Fin 2) * 8 + 8
    rw [g0]; show (i 0).val / 8 * 8 ≤ (i 0).val ∧ (i 0).val < (i 0).val / 8 * 8 + 8; omega
  | ⟨1, _⟩ =>
    show win0_2.index _ (1 : Fin 2) * 1 ≤ (i 1).val ∧ (i 1).val < win0_2.index _ (1 : Fin 2) * 1 + 1
    rw [g1]; omega

/-- The output array after the run is the column of scores of the argument arrays. -/
theorem final (c : Dev nD) :
    (dats m 0 c).arrAt 2 cfg0.N = colScores (V m c main_arg0) (V m c main_arg1) :=
  (dats m 0 c).arrAt_eq_of_cover 2 (colScores (V m c main_arg0) (V m c main_arg1)) (fun t _ => flushed_eq m c t) cover

/-- The reshape after the region turns the column into the vector of scores. -/
theorem tail_result (c : Dev nD) :
    Pipeline.afterTail₀ cfgs (dats m) 0 (V0 m) [hostOps1] c main_v1
      = vecScores (m ((c.tc : Thread nD τ).loc main_arg0)) (m ((c.tc : Thread nD τ).loc main_arg1)) := by
  unfold Pipeline.afterTail₀
  show StableHlo.after hostOps1 _ (Proc.devRef .tc main_v1) = _
  after_results
  show (fun i => shapeCast S128 (Pipeline.withArrays spec0 c (V0 m c) (fun w => (dats m 0 c).arrAt w cfg0.N)
      (Proc.devRef .tc (Pipeline.arrRef spec0 2))) shapeCasts_S128x1_S128 i) = _
  rw [Pipeline.withArrays_arr spec0 launch0.win.arr_inj c _ _ 2, final m c, V_main_arg0, V_main_arg1]
  exact MaxSim.shapeCast_scoresCol _ _ _ _ shapeCasts_S128x1_S128

/-! ## The run, read -/

/-- Every weakly fair execution of the kernel's program ends with the result at the vector of scores of the
    arguments, and the arguments unchanged. -/
theorem run : θ_run defs (onTc (τ := τ) (main (F := Ideal))) ⟨m, fun _ => 0, ρ⟩ fun r => ∀ c : Dev nD,
      r.2.mem ((c.tc : Thread nD τ).loc main_v1)
        = vecScores (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 rfl (by intro w; fin_cases w <;> decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Array

end
-- ==== Proof.RefScore.lean ====
/-
  The reference's result read at an index: entry `b` of its `[128]` result is the score (`MaxSim.rowScore`) of
  batch entry `b` of the two `[128, 512, 128]` arguments.

  The reference squares and sums each row of both arguments (each sum starting from the constant zero, which adds
  nothing), contracts the two arguments over their last axis batch by batch, forms `2·qd - ‖q‖² - ‖d‖²` by
  broadcasting the two row-norm tables along the missing axis, takes the maximum over the documents from the
  constant `-∞`, and sums over the queries from the constant zero.
-/
import proofs.«137263_j78829829751029_1_alg».proof.Proof.Gen.ReferenceIdeal.Read
import proofs.«137263_j78829829751029_1_alg».proof.Proof.LibAxisAt
import proofs.«137263_j78829829751029_1_alg».proof.Proof.Score
import Idealize.ShloMosaic.Lib.ValueIdx
import Idealize.ShloMosaic.PureOps.Ideal.Laws

noncomputable section

namespace Cert.ReferenceIdeal.Score

open Cert.ReferenceIdeal Cert.ReferenceIdeal.Gen Cert.ReferenceIdeal.Read Idealize.ShloMosaic Idealize.ShloMosaic.ValueIdx

/-! ## Where each stage reads its operand, by coordinates -/

theorem at_queries (b : Fin 128) (i : Fin 512) : idx_main_v14 (ix1 b) i = ix2 b i :=
  funext fun a => Fin.ext (by match a with | ⟨0, _⟩ => rfl | ⟨1, _⟩ => rfl)

theorem at_lhs (b : Fin 128) (i k : Fin 512) (e : Fin 128) : lidx_main_v4 (ix3 b i k) e = ix3 b i e :=
  funext fun a => Fin.ext (by match a with | ⟨0, _⟩ => rfl | ⟨1, _⟩ => rfl | ⟨2, _⟩ => rfl)

theorem at_rhs (b : Fin 128) (i k : Fin 512) (e : Fin 128) : ridx_main_v4 (ix3 b i k) e = ix3 b k e :=
  funext fun a => Fin.ext (by match a with | ⟨0, _⟩ => rfl | ⟨1, _⟩ => rfl | ⟨2, _⟩ => rfl)

theorem at_qnorm (b : Fin 128) (i k : Fin 512) : idx_main_v7 (idx_main_v8 (ix3 b i k)) = ix2 b i :=
  funext fun a => Fin.ext (by match a with | ⟨0, _⟩ => rfl | ⟨1, _⟩ => rfl)

theorem at_dnorm (b : Fin 128) (i k : Fin 512) : idx_main_v10 (idx_main_v11 (ix3 b i k)) = ix2 b k :=
  funext fun a => Fin.ext (by match a with | ⟨0, _⟩ => rfl | ⟨1, _⟩ => rfl)

theorem at_qrow (b : Fin 128) (i : Fin 512) (e : Fin 128) : idx_main_v1 (ix2 b i) e = ix3 b i e :=
  funext fun a => Fin.ext (by match a with | ⟨0, _⟩ => rfl | ⟨1, _⟩ => rfl | ⟨2, _⟩ => rfl)

theorem at_drow (b : Fin 128) (k : Fin 512) (e : Fin 128) : idx_main_v3 (ix2 b k) e = ix3 b k e :=
  funext fun a => Fin.ext (by match a with | ⟨0, _⟩ => rfl | ⟨1, _⟩ => rfl | ⟨2, _⟩ => rfl)

/-! ## The pair term and the result -/

/-- The reference's `2·qd - ‖q‖² - ‖d‖²` table at `(b, i, k)` is the expanded negated squared distance of query
    row `i` and document row `k` of batch entry `b`. -/
theorem pair_apply (x0 x1 : (⟨S128x512x128, .f32⟩ : BufTy).Contents (Elt Ideal)) (b : Fin 128) (i k : Fin 512) :
    val_main_v12 (F := Ideal) x0 x1 (ix3 b i k)
      = MaxSim.negDist (Ideal.ofBits .f32 0x40000000#32) (fun i e => x0 (ix3 b i e)) (fun k e => x1 (ix3 b k e)) i k := by
  rw [val_main_v12_apply, val_main_v9_apply, val_main_v6_apply, val_main_v5_apply, val_main_cst_1_apply, val_main_v4_apply,
    val_main_v8_apply, val_main_v7_apply, at_qnorm, val_main_v1_apply, val_main_cst_apply,
    val_main_v11_apply, val_main_v10_apply, at_dnorm, val_main_v3_apply, val_main_cst_0_apply]
  simp only [at_lhs, at_rhs, at_qrow, at_drow, val_main_v0_apply, val_main_v2_apply]
  show (Ideal.ofBits .f32 0x40000000#32 * _ - (Ideal.ofBits .f32 0x00000000#32 + _)) - (Ideal.ofBits .f32 0x00000000#32 + _) = _
  rw [Ideal.ofBits_zero_f32, zero_add, zero_add]
  rfl

/-- Entry `b` of the reference's result is the score of batch entry `b` of its two arguments. -/
theorem result_apply (x0 x1 : (⟨S128x512x128, .f32⟩ : BufTy).Contents (Elt Ideal)) (b : Fin 128) :
    val_main_v14 (F := Ideal) x0 x1 (ix1 b)
      = MaxSim.rowScore (Ideal.ofBits .f32 0x40000000#32) (Ideal.ofBits .f32 0xFF800000#32)
          (fun i e => x0 (ix3 b i e)) (fun k e => x1 (ix3 b k e)) := by
  rw [val_main_v14_apply, val_main_cst_3_apply]
  show Ideal.ofBits .f32 0x00000000#32 + _ = _
  rw [Ideal.ofBits_zero_f32, zero_add]
  unfold MaxSim.rowScore
  refine Finset.sum_congr rfl fun i _ => ?_
  rw [at_queries]
  unfold val_main_v13
  refine (AxisAt.hostMax_axis2_apply _ _ _ (by decide) _ b i).trans ?_
  exact congrArg (fun f => Finset.fold max (Ideal.ofBits .f32 0xFF800000#32) f (Finset.univ : Finset (Fin 512)))
    (funext fun k => pair_apply x0 x1 b i k)

/-- The reference's result is the vector of the 128 scores of its two arguments. -/
theorem result_eq (x0 x1 : (⟨S128x512x128, .f32⟩ : BufTy).Contents (Elt Ideal)) :
    val_main_v14 (F := Ideal) x0 x1
      = MaxSim.scores (Ideal.ofBits .f32 0x40000000#32) (Ideal.ofBits .f32 0xFF800000#32) x0 x1 := by
  funext j
  have ej : j = ix1 (⟨(j 0).val, (j 0).isLt⟩ : Fin 128) :=
    funext fun a => Fin.ext (by match a with | ⟨0, _⟩ => rfl)
  exact (congrArg (val_main_v14 (F := Ideal) x0 x1) ej).trans (result_apply x0 x1 _)

end Cert.ReferenceIdeal.Score

end
-- ==== Proof.lean ====
/-
  The kernel and its reference compute, for each of 128 batch entries, the late-interaction score of 512 query rows
  against 512 document rows of length 128 under the squared Euclidean metric:

      score b = Σ_i max_k ( 2·⟨q_bi, d_bk⟩ - ‖q_bi‖² - ‖d_bk‖² ),

  the negated squared distance in its expanded form, the two subtractions taken left to right, the maximum folded
  from -∞ and the sums from 0. The reference evaluates this on the whole `[128, 512, 128]` arrays; the kernel walks
  the batch in sixteen blocks of eight entries, narrows the operands of the cross term to sixteen bits before the
  contraction (the identity on the extended reals), writes each block's eight scores as an `[8, 1]` column of a
  `[128, 1]` output, and reshapes that column to the `[128]` result.

  On the extended reals the two are the SAME term, entry by entry (`MaxSim.rowScore`, Proof/Score.lean): no
  algebraic law beyond `0 + x = x` for the reference's explicit zero initial values joins them, so the finiteness
  of the inputs is never used. Proof/KernelScore.lean reads the kernel's stored block at an index, Proof/KernelArray.lean
  assembles the sixteen blocks into the output array and carries it through the reshape, Proof/RefScore.lean reads the
  reference's result at an index, and Proof/LibAxisAt.lean holds the layout and reduction lemmas both sides share.
-/
import proofs.«137263_j78829829751029_1_alg».proof.Defs
import proofs.«137263_j78829829751029_1_alg».proof.Proof.Gen.Kernel
import proofs.«137263_j78829829751029_1_alg».proof.Proof.Gen.Kernel.Skeleton
import proofs.«137263_j78829829751029_1_alg».proof.Proof.Gen.Kernel.Launch
import proofs.«137263_j78829829751029_1_alg».proof.Proof.Gen.Kernel.Points
import proofs.«137263_j78829829751029_1_alg».proof.Proof.Gen.Kernel.Frame
import proofs.«137263_j78829829751029_1_alg».proof.Proof.Gen.KernelIdeal
import proofs.«137263_j78829829751029_1_alg».proof.Proof.Gen.KernelIdeal.Skeleton
import proofs.«137263_j78829829751029_1_alg».proof.Proof.Gen.KernelIdeal.Launch
import proofs.«137263_j78829829751029_1_alg».proof.Proof.Gen.KernelIdeal.Points
import proofs.«137263_j78829829751029_1_alg».proof.Proof.Gen.KernelIdeal.Frame
import proofs.«137263_j78829829751029_1_alg».proof.Proof.Gen.ReferenceIdeal
import proofs.«137263_j78829829751029_1_alg».proof.Proof.Gen.ReferenceIdeal.Run
import proofs.«137263_j78829829751029_1_alg».proof.Proof.Gen.ReferenceIdeal.Read
import proofs.«137263_j78829829751029_1_alg».proof.Proof.Gen.Pre_finite_inputs
import proofs.«137263_j78829829751029_1_alg».proof.Proof.KernelArray
import proofs.«137263_j78829829751029_1_alg».proof.Proof.RefScore
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the two arguments, both programs end with the vector of the 128 scores of the
    arguments: the kernel's output column reshaped, and the reference's last sum. -/
theorem algebraic : Cert.algebraic_KernelIdeal_ReferenceIdeal := by
  intro m ρ m' ρ' _ hagree
  refine ⟨fun c => Cert.KernelIdeal.Array.vecScores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Score.result_eq
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))).trans ?_
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
